-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S4096x8 : Shape := ⟨2, ![4096, 8]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x2048 .f32) (main_arg1 : FVec F S8192x2048 .f32) (main_arg2 : FVec F S8192 .f32) (main_arg3 : IVec S4096x8 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x2048 : Shape := ⟨2, ![4096, 2048]⟩
abbrev S8192x2048 : Shape := ⟨2, ![8192, 2048]⟩
abbrev S8192 : Shape := ⟨1, ![8192]⟩
abbrev S4096x8 : Shape := ⟨2, ![4096, 8]⟩
abbrev S1x8192 : Shape := ⟨2, ![1, 8192]⟩
abbrev S_ : Shape := ⟨0, ![]⟩
abbrev S8 : Shape := ⟨1, ![8]⟩
abbrev S8x1 : Shape := ⟨2, ![8, 1]⟩
abbrev S8x8192 : Shape := ⟨2, ![8, 8192]⟩
abbrev S4096x8192 : Shape := ⟨2, ![4096, 8192]⟩
abbrev S512x2048 : Shape := ⟨2, ![512, 2048]⟩
abbrev S1x512 : Shape := ⟨2, ![1, 512]⟩
abbrev S512x8 : Shape := ⟨2, ![512, 8]⟩
abbrev S8x512 : Shape := ⟨2, ![8, 512]⟩
abbrev S512x512 : Shape := ⟨2, ![512, 512]⟩

abbrev nBuf : Space → Nat
  | .hbm => 32
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S4096x8, .i32⟩
  | .hbm, ⟨4, _⟩ => ⟨S1x8192, .f32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8, .i32⟩
  | .hbm, ⟨25, _⟩ => ⟨S8x1, .i32⟩
  | .hbm, ⟨26, _⟩ => ⟨S1x8192, .i32⟩
  | .hbm, ⟨27, _⟩ => ⟨S8x8192, .i32⟩
  | .hbm, ⟨28, _⟩ => ⟨S8x8192, .i32⟩
  | .hbm, ⟨29, _⟩ => ⟨S8x8192, .i1⟩
  | .hbm, ⟨30, _⟩ => ⟨S8x8192, .f32⟩
  | .hbm, ⟨31, _⟩ => ⟨S4096x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S512x8, .i32⟩
  | .local _ .vmem, ⟨7, _⟩ => ⟨S512x8, .i32⟩
  | .local _ .vmem, ⟨8, _⟩ => ⟨S8x512, .f32⟩
  | .local _ .vmem, ⟨9, _⟩ => ⟨S8x512, .f32⟩
  | .local _ .vmem, ⟨10, _⟩ => ⟨S512x512, .f32⟩
  | .local _ .vmem, ⟨11, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192_S1x8192 : S8192.ShapeCasts S1x8192
  bcast_S_S8192 : S_.BroadcastsInDim S8192 (![] : Fin 0 → Fin S8192.rank)
  shapeCasts_S8_S8x1 : S8.ShapeCasts S8x1
  bcast_S8x1_S8x8192_0_1 : S8x1.BroadcastsInDim S8x8192 (![0, 1] : Fin 2 → Fin S8x8192.rank)
  bcast_S1x8192_S8x8192_0_1 : S1x8192.BroadcastsInDim S8x8192 (![0, 1] : Fin 2 → Fin S8x8192.rank)
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x8_S512x8_0_0 : ∀ a, (![0, 0] : Fin 2 → Nat) a + S512x8.size a ≤ S512x8.size a
  h_S512x8 : 0 < S512x8.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S4096x8.size a
  hwx0_3 : ∀ i : grid0.Coords, EltTy.bits .i32 = 32 ∨ (Rect.block (s := S4096x8) S512x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x8192.size a
  hwx0_4 : ∀ i : grid0.Coords, EltTy.bits .f32 = 32 ∨ (Rect.block (s := S8x8192) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x8192.size a
  hwx0_5 : ∀ i : grid0.Coords, EltTy.bits .f32 = 32 ∨ (Rect.block (s := S4096x8192) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8 : Shape := ⟨2, ![4096, 8]⟩
abbrev S_ : Shape := ⟨0, ![]⟩
abbrev S4096x8192 : Shape := ⟨2, ![4096, 8192]⟩
abbrev S1x8192 : Shape := ⟨2, ![1, 8192]⟩
abbrev S4096x8x1024 : Shape := ⟨3, ![4096, 8, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S4096x8, .i32⟩
  | .hbm, ⟨4, _⟩ => ⟨S_, .f32⟩
  | .hbm, ⟨5, _⟩ => ⟨S8192x2048, .f32⟩
  | .hbm, ⟨6, _⟩ => ⟨S8192x2048, .i1⟩
  | .hbm, ⟨7, _⟩ => ⟨S_, .f32⟩
  | .hbm, ⟨8, _⟩ => ⟨S8192x2048, .f32⟩
  | .hbm, ⟨9, _⟩ => ⟨S8192x2048, .i1⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S4096x8192, .f32⟩
  | .hbm, ⟨20, _⟩ => ⟨S1x8192, .f32⟩
  | .hbm, ⟨21, _⟩ => ⟨S4096x8192, .f32⟩
  | .hbm, ⟨22, _⟩ => ⟨S4096x8192, .f32⟩
  | .hbm, ⟨23, _⟩ => ⟨S4096x8, .f32⟩
  | .hbm, ⟨24, _⟩ => ⟨S4096x8x1024, .f32⟩
  | .hbm, ⟨25, _⟩ => ⟨S4096x8192, .f32⟩
  | .hbm, ⟨26, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x8_S4096x8x1024_0_1 : S4096x8.BroadcastsInDim S4096x8x1024 (![0, 1] : Fin 2 → Fin S4096x8x1024.rank)
  shapeCasts_S4096x8x1024_S4096x8192 : S4096x8x1024.ShapeCasts S4096x8192
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.Spec.lean ====
/-
  The function both programs compute, index by index, on the extended reals.

  A ternary-weight linear layer with per-column scales and a per-tile gate: row `b`, column `o` of the result is
      ( Σ_k x[b,k] · tern(w[o,k]) ) · s[o] · gate[b, o / 1024],
  where `tern` sends a weight above one half to `1`, below minus one half to `-1` and anything else to `0`, and the
  gate, an integer array, is read as the real number each integer is. The 8192 columns fall into 8 tiles of 1024
  consecutive columns, and column `o` is masked by gate column `o / 1024`.

  One program takes the gate's entry directly; the other multiplies the row of 8 gate entries with a one-hot
  column (`1` at the tile of `o`, `0` elsewhere) and sums: `sum_onehot` says the sum is the one entry, on every
  extended real, because `a · 0 = 0` there even for infinite `a` and `a · 1 = a`.
-/
import Idealize.ShloMosaic.PureOps.Ideal
import Idealize.ShloMosaic.Lib.ValueIdx

noncomputable section

open Idealize.ShloMosaic Idealize.ShloMosaic.ValueIdx
open scoped BigOperators

namespace Cert.GatedTernary

/-- The ternary code of a weight: `1` above one half, `-1` below minus one half, `0` otherwise — as two nested
    selections on the two comparisons, the thresholds and the three values the f32 words of 0.5, -0.5, 1, -1, 0. -/
def tern (w : Ideal .f32) : Ideal .f32 :=
  Scalar.select (FloatOps.cmpf (F := Ideal) (φ := .f32) .ogt w (Ideal.ofBits .f32 0x3F000000#32)) (Ideal.ofBits .f32 0x3F800000#32)
    (Scalar.select (FloatOps.cmpf (F := Ideal) (φ := .f32) .olt w (Ideal.ofBits .f32 0xBF000000#32)) (Ideal.ofBits .f32 0xBF800000#32)
      (Ideal.ofBits .f32 0x00000000#32))

/-- The gate column that masks output column `o`: the tiles are 1024 columns wide. -/
def tileOf (o : Fin 8192) : Fin 8 := ⟨o.val / 1024, by have := o.isLt; omega⟩

theorem tileOf_val (o : Fin 8192) : (tileOf o).val = o.val / 1024 := rfl

/-- The result at row `b`, column `o`: the row of `x` against the ternary codes of row `o` of `w`, scaled by
    `s[o]`, gated by the integer `g[b, o / 1024]` read as a real. -/
def gatedAt (x : (⟨2, ![4096, 2048]⟩ : Shape).Idx → EReal) (w : (⟨2, ![8192, 2048]⟩ : Shape).Idx → EReal)
    (s : (⟨1, ![8192]⟩ : Shape).Idx → EReal) (g : (⟨2, ![4096, 8]⟩ : Shape).Idx → BitVec 32) (b : Fin 4096) (o : Fin 8192) : EReal :=
  ((∑ k : Fin 2048, x (ix2 b k) * tern (w (ix2 o k))) * s (ix1 o)) * (((g (ix2 b (tileOf o))).toInt : ℝ) : EReal)

/-- The whole result array. -/
def gated (x : (⟨2, ![4096, 2048]⟩ : Shape).Idx → EReal) (w : (⟨2, ![8192, 2048]⟩ : Shape).Idx → EReal)
    (s : (⟨1, ![8192]⟩ : Shape).Idx → EReal) (g : (⟨2, ![4096, 8]⟩ : Shape).Idx → BitVec 32) :
    (⟨2, ![4096, 8192]⟩ : Shape).Idx → EReal :=
  fun i => gatedAt x w s g (i 0) (i 1)

theorem gated_ix2 (x : (⟨2, ![4096, 2048]⟩ : Shape).Idx → EReal) (w : (⟨2, ![8192, 2048]⟩ : Shape).Idx → EReal)
    (s : (⟨1, ![8192]⟩ : Shape).Idx → EReal) (g : (⟨2, ![4096, 8]⟩ : Shape).Idx → BitVec 32) (b : Fin 4096) (o : Fin 8192) :
    gated x w s g (ix2 b o) = gatedAt x w s g b o := rfl

/-- A row of eight extended reals against a one-hot column is the entry at the hot position: the other seven
    products are `a · 0 = 0` (on the extended reals too, whatever `a`), the remaining one `a · 1 = a`. -/
theorem sum_onehot (a : Fin 8 → EReal) (t0 : Fin 8) :
    ∑ t : Fin 8, a t * (if t = t0 then (1 : EReal) else 0) = a t0 := by
  rw [Finset.sum_eq_single t0]
  · rw [if_pos rfl, mul_one]
  · intro t _ h; rw [if_neg h, mul_zero]
  · intro h; exact absurd (Finset.mem_univ _) h

end Cert.GatedTernary

end
-- ==== Proof.KernelBlock.lean ====
/-
  One grid point's block of the kernel, read at an index, on the extended reals.

  The body works on a block of 512 rows of `x` (`x0`), a block of 512 rows of `w` (`x1`), the 512 scales of those
  output columns as a row (`x2`), the 512 × 8 gate entries of those rows (`x3`) and the 8 × 512 piece of the tile
  indicator over those columns (`x4`). Entry (p, q) of what it stores is
      ( Σ_k x0[p,k] · tern(x1[q,k]) ) · x2[0,q] · ( Σ_t real(x3[p,t]) · x4[t,q] ):
  the two matrix products into a zero accumulator are plain sums over their one contracted axis, the changes of
  float format are the identity on extended reals, and the scales' row is broadcast down the rows.
-/
import proofs.«100587_j51934744543485_1_alg».proof.Proof.Gen.KernelIdeal.Skeleton
import proofs.«100587_j51934744543485_1_alg».proof.Proof.Spec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.GatedTernary
open scoped BigOperators

/-! ## The product of the row block with the ternary codes: contracted over the 2048 input features -/

theorem lhs_xw_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_xw_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_xw_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_xw_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry (p, q) of the first product: row `p` of the left block against row `q` of the right block. -/
theorem rows_product_apply (l r : FVec Ideal S512x2048 .bf16) (p q : Fin 512) :
    matmul dot_S512x2048_S512x2048_S512x512_1_1_0_0_n_n none l r (constant S512x512 .f32 0x00000000#32) (ix2 p q)
      = ∑ k : Fin 2048, l (ix2 p k) * r (ix2 q k) := by
  simp only [matmul]
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 p q) ((ValueIdx.contrEquiv1 dot_S512x2048_S512x2048_S512x512_1_1_0_0_n_n 2048 rfl rfl).symm k) = ix2 p k := funext fun a => Fin.ext (by
    match a with
    | ⟨0, _⟩ => exact lhs_xw_0 _ _
    | ⟨1, _⟩ => exact (lhs_xw_1 _ _).trans hk)
  have er : dot_S512x2048_S512x2048_S512x512_1_1_0_0_n_n.rhsIdx (ix2 p q) ((ValueIdx.contrEquiv1 dot_S512x2048_S512x2048_S512x512_1_1_0_0_n_n 2048 rfl rfl).symm k) = ix2 q k := funext fun a => Fin.ext (by
    match a with
    | ⟨0, _⟩ => exact rhs_xw_0 _ _
    | ⟨1, _⟩ => exact (rhs_xw_1 _ _).trans hk)
  rw [el, er]

/-! ## The product of the gate rows with the indicator's columns: contracted over the 8 tiles -/

theorem lhs_ge_0 (i : S512x512.Idx) (q : dot_S512x8_S8x512_S512x512_1_0_0_1_n_n.contr.Idx) :
    (dot_S512x8_S8x512_S512x512_1_0_0_1_n_n.lhsIdx i q 0).val = (i 0).val := by
  unfold DotDims.lhsIdx
  rw [dif_neg (show ¬(0 : Fin S512x8.rank) ∈ dot_S512x8_S8x512_S512x512_1_0_0_1_n_n.lhsBatch by decide), dif_pos (show (0 : Fin S512x8.rank) ∈ dot_S512x8_S8x512_S512x512_1_0_0_1_n_n.lhsNonContracting by decide)]
  rfl
theorem lhs_ge_1 (i : S512x512.Idx) (q : dot_S512x8_S8x512_S512x512_1_0_0_1_n_n.contr.Idx) :
    (dot_S512x8_S8x512_S512x512_1_0_0_1_n_n.lhsIdx i q 1).val = (q ⟨0, by decide⟩).val :=
  dot_S512x8_S8x512_S512x512_1_0_0_1_n_n.lhsIdx_val_of_single rfl i q
theorem rhs_ge_0 (i : S512x512.Idx) (q : dot_S512x8_S8x512_S512x512_1_0_0_1_n_n.contr.Idx) :
    (dot_S512x8_S8x512_S512x512_1_0_0_1_n_n.rhsIdx i q 0).val = (q ⟨0, by decide⟩).val :=
  dot_S512x8_S8x512_S512x512_1_0_0_1_n_n.rhsIdx_val_of_single rfl i q
theorem rhs_ge_1 (i : S512x512.Idx) (q : dot_S512x8_S8x512_S512x512_1_0_0_1_n_n.contr.Idx) :
    (dot_S512x8_S8x512_S512x512_1_0_0_1_n_n.rhsIdx i q 1).val = (i 1).val := by
  unfold DotDims.rhsIdx
  rw [dif_neg (show ¬(1 : Fin S8x512.rank) ∈ dot_S512x8_S8x512_S512x512_1_0_0_1_n_n.rhsBatch by decide), dif_pos (show (1 : Fin S8x512.rank) ∈ dot_S512x8_S8x512_S512x512_1_0_0_1_n_n.rhsNonContracting by decide)]
  rfl

/-- Entry (p, q) of the second product: row `p` of the gate block against column `q` of the indicator block. -/
theorem gate_product_apply (l : FVec Ideal S512x8 .bf16) (r : FVec Ideal S8x512 .bf16) (p q : Fin 512) :
    matmul dot_S512x8_S8x512_S512x512_1_0_0_1_n_n none l r (constant S512x512 .f32 0x00000000#32) (ix2 p q)
      = ∑ t : Fin 8, l (ix2 p t) * r (ix2 t q) := by
  simp only [matmul]
  rw [Ideal.matmul_constant_zero_apply, ← Equiv.sum_comp (ValueIdx.contrEquiv1 dot_S512x8_S8x512_S512x512_1_0_0_1_n_n 8 rfl rfl).symm]
  refine Finset.sum_congr rfl fun k _ => ?_
  have hk := ValueIdx.contrEquiv1_symm_val dot_S512x8_S8x512_S512x512_1_0_0_1_n_n 8 rfl rfl k
  have el : dot_S512x8_S8x512_S512x512_1_0_0_1_n_n.lhsIdx (ix2 p q) ((ValueIdx.contrEquiv1 dot_S512x8_S8x512_S512x512_1_0_0_1_n_n 8 rfl rfl).symm k) = ix2 p k := funext fun a => Fin.ext (by
    match a with
    | ⟨0, _⟩ => exact lhs_ge_0 _ _
    | ⟨1, _⟩ => exact (lhs_ge_1 _ _).trans hk)
  have er : dot_S512x8_S8x512_S512x512_1_0_0_1_n_n.rhsIdx (ix2 p q) ((ValueIdx.contrEquiv1 dot_S512x8_S8x512_S512x512_1_0_0_1_n_n 8 rfl rfl).symm k) = ix2 k q := funext fun a => Fin.ext (by
    match a with
    | ⟨0, _⟩ => exact (rhs_ge_0 _ _).trans hk
    | ⟨1, _⟩ => exact rhs_ge_1 _ _)
  rw [el, er]

/-! ## The scales' row broadcast down the block's rows -/

theorem scales_row_apply (y : FVec Ideal S1x512 .f32) (h : S1x512.Broadcasts S512x512) (p q : Fin 512) :
    broadcastTo S512x512 y h (ix2 p q) = y (ix2 (0 : Fin 1) q) :=
  broadcastTo_apply y h (ix2 p q) (ix2 (0 : Fin 1) q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-! ## The stored block at an index -/

/-- Entry (p, q) of what the body stores, from the five blocks it loads. -/
theorem stored_apply (x0 x1 : Vec Ideal S512x2048 .f32) (x2 : Vec Ideal S1x512 .f32) (x3 : Vec Ideal S512x8 .i32)
    (x4 : Vec Ideal S8x512 .f32) (p q : Fin 512) :
    k0_pay1 (F := Ideal) x0 x1 x2 x3 x4 (ix2 p q)
      = ((∑ k : Fin 2048, x0 (ix2 p k) * tern (x1 (ix2 q k))) * x2 (ix2 (0 : Fin 1) q))
          * (∑ t : Fin 8, (((x3 (ix2 p t)).toInt : ℝ) : EReal) * x4 (ix2 t q)) := by
  unfold k0_pay1
  show (matmul dot_S512x2048_S512x2048_S512x512_1_1_0_0_n_n none _ _ _ (ix2 p q) * broadcastTo S512x512 _ _ (ix2 p q)) * matmul dot_S512x8_S8x512_S512x512_1_0_0_1_n_n none _ _ _ (ix2 p q) = _
  rw [rows_product_apply, gate_product_apply, scales_row_apply, shapeCast_self, shapeCast_self]
  rfl

end Cert.KernelIdeal.Block

end
-- ==== Proof.TileIndicator.lean ====
/-
  Integer facts about the one-hot tile indicator, on 32-bit words.

  `jnp`'s floor division of a column index `o` by 1024 is computed on words as: the quotient rounded toward zero,
  lowered by one where the operands' signs differ and the remainder is not zero. For `0 ≤ o < 8192` the dividend is
  never negative, so the correction never fires and the result is the word of `o / 1024` (`floorDivWord_eq`, decided
  over the 8192 columns, split as `o = 1024·a + 32·b + c`). A row index `t < 8` compared with that word for equality
  and read as an unsigned integer is `1` where `t = o / 1024` and `0` elsewhere (`onehot_entry`).
-/
import Idealize.ShloMosaic.PureOps.Ideal

noncomputable section

open Idealize.ShloMosaic

namespace Cert.GatedTernary

/-- The sign of a word read as a signed integer: `0`, `-1` or `1`. -/
def signWord (x : BitVec 32) : BitVec 32 := if x = 0 then 0 else if x.msb then -1 else 1

/-- Floor division by 1024 as the host program computes it: truncated quotient, minus one where the signs differ and
    the remainder is not zero. -/
def floorDivWord (x : BitVec 32) : BitVec 32 :=
  Scalar.select
    (IntOp.andi (IntOp.cmpi .ne (signWord x) (signWord 1024#32)) (IntOp.cmpi .ne (IntOp.remsi .host x 1024#32) 0#32))
    (IntOp.subi (IntOp.divsi .host x 1024#32) 1#32) (IntOp.divsi .host x 1024#32)

/-- Over the 8192 column indices, written `1024·a + 32·b + c`, the result is the word of `a`. -/
theorem floorDivWord_cols : ∀ (a : Fin 8) (b : Fin 32) (c : Fin 32),
    floorDivWord (BitVec.ofNat 32 (a.val * 1024 + b.val * 32 + c.val)) = BitVec.ofNat 32 a.val := by
  decide +kernel

/-- For a column index below 8192 the host's floor division by 1024 is the natural-number quotient. -/
theorem floorDivWord_eq (o : Nat) (h : o < 8192) : floorDivWord (BitVec.ofNat 32 o) = BitVec.ofNat 32 (o / 1024) := by
  have key := floorDivWord_cols ⟨o / 1024, by omega⟩ ⟨o % 1024 / 32, by omega⟩ ⟨o % 32, by omega⟩
  have e : o / 1024 * 1024 + o % 1024 / 32 * 32 + o % 32 = o := by omega
  simp only [e] at key
  exact key

/-- Two indices below 8, as words, are equal words exactly when they are equal. -/
theorem cmpi_eq_small : ∀ (t q : Fin 8),
    IntOp.cmpi .eq (BitVec.ofNat 32 t.val) (BitVec.ofNat 32 q.val) = if t = q then 1#1 else 0#1 := by
  decide +kernel

/-- An entry of the indicator: the comparison bit read as an unsigned integer is `1` on the tile's row, `0` off it. -/
theorem onehot_entry (t q : Fin 8) :
    FloatOps.uitofp (F := Ideal) .f32 (IntOp.cmpi .eq (BitVec.ofNat 32 t.val) (BitVec.ofNat 32 q.val))
      = if t = q then (1 : EReal) else 0 := by
  rw [cmpi_eq_small]
  by_cases h : t = q
  · rw [if_pos h, if_pos h]
    show (((1#1 : BitVec 1).toNat : ℝ) : EReal) = 1
    norm_num
  · rw [if_neg h, if_neg h]
    show (((0#1 : BitVec 1).toNat : ℝ) : EReal) = 0
    norm_num

end Cert.GatedTernary

end
-- ==== Proof.EntryArrays.lean ====
/-
  The two arrays the host program computes before the kernel region, as the region finds them.

  The scales `s`, a vector of 8192, are handed to the kernel as a [1, 8192] row: entry (0, o) is `s[o]`.

  The tile indicator is the [8, 8192] array whose entry (t, o) compares the row index `t` with the column's tile
  `o / 1024` (the host's floor division of the column indices by 1024, on 32-bit words) and converts the bit to a
  float: `1` where `t = o / 1024`, `0` elsewhere.
-/
import proofs.«100587_j51934744543485_1_alg».proof.Proof.Gen.KernelIdeal.Frame
import proofs.«100587_j51934744543485_1_alg».proof.Proof.Spec
import proofs.«100587_j51934744543485_1_alg».proof.Proof.TileIndicator
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.GatedTernary

variable {F : FTy → Type} [FloatOps F]
variable (m : (ℓ : Loc nD τ sig) → Buf (Elt F) ℓ)

/-! ## The scales as a row -/

/-- The region finds the scales reshaped to one row. -/
theorem V_scales (c : Dev nD) :
    (V m c main_v0 : S1x8192.Idx → Elt F .f32)
      = shapeCast S1x8192 (m ((c : Thread nD τ).loc main_arg2) : S8192.Idx → Elt F .f32) shapeCasts_S8192_S1x8192 := by
  show StableHlo.after (List.flatten [hostOps0, hostOps0_1, hostOps0_2]) (fun b => m (c, b)) (Proc.devRef .tc main_v0) = _
  simp only [Gen.hostOps0, Gen.hostOps0_1, Gen.hostOps0_2, List.flatten_cons, List.flatten_nil, List.append_nil, List.cons_append,
    List.nil_append]
  after_results
  rfl

/-- Entry (0, o) of that row is the scale of column `o`. -/
theorem V_scales_apply (c : Dev nD) (o : Fin 8192) :
    (V m c main_v0 : S1x8192.Idx → Elt F .f32) (ix2 (0 : Fin 1) o)
      = (m ((c : Thread nD τ).loc main_arg2) : S8192.Idx → Elt F .f32) (ix1 o) := by
  rw [V_scales]
  exact shapeCast_apply _ shapeCasts_S8192_S1x8192 (ix2 (0 : Fin 1) o) (ix1 o) (by
    rw [Shape.rowMajor_val_one, Shape.rowMajor_val_two]
    show o.val = 0 * 8192 + o.val
    omega)

/-! ## The tile indicator -/

/-- The column indices floor-divided by 1024, as the host computes them: the truncated quotient, lowered by one where
    the signs of dividend and divisor differ and the remainder is not zero. -/
def colTiles : IVec S8192 32 :=
  select
    (andi
      (cmpi .ne (signi (iotaInDim S8192 32 0)) (broadcastInDim S8192 ![] bcast_S_S8192 (signi (id (constantI S_ 32 1024#32)))))
      (cmpi .ne (Host.remsi (iotaInDim S8192 32 0) (broadcastInDim S8192 ![] bcast_S_S8192 (id (constantI S_ 32 1024#32))))
        (broadcastInDim S8192 ![] bcast_S_S8192 (constantI S_ 32 0#32))))
    (subi (Host.divsi (iotaInDim S8192 32 0) (broadcastInDim S8192 ![] bcast_S_S8192 (id (constantI S_ 32 1024#32))))
      (broadcastInDim S8192 ![] bcast_S_S8192 (constantI S_ 32 1#32)))
    (Host.divsi (iotaInDim S8192 32 0) (broadcastInDim S8192 ![] bcast_S_S8192 (id (constantI S_ 32 1024#32))))

/-- The indicator: row index against column tile, the comparison bit converted to a float. -/
def indicator : S8x8192.Idx → Elt F .f32 :=
  uitofp .f32
    (cmpi .eq
      (broadcastInDim S8x8192 ![0, 1] bcast_S8x1_S8x8192_0_1 (shapeCast S8x1 (iotaInDim S8 32 0) shapeCasts_S8_S8x1))
      (broadcastInDim S8x8192 ![0, 1] bcast_S1x8192_S8x8192_0_1 (shapeCast S1x8192 colTiles shapeCasts_S8192_S1x8192)))

set_option maxHeartbeats 4000000 in
/-- The region finds the indicator in the kernel's fifth operand. -/
theorem V_indicator (c : Dev nD) : (V m c main_v9 : S8x8192.Idx → Elt F .f32) = indicator := by
  show StableHlo.after (List.flatten [hostOps0, hostOps0_1, hostOps0_2]) (fun b => m (c, b)) (Proc.devRef .tc main_v9) = _
  simp only [Gen.hostOps0, Gen.hostOps0_1, Gen.hostOps0_2, List.flatten_cons, List.flatten_nil, List.append_nil, List.cons_append,
    List.nil_append]
  after_results
  rfl

/-- The floor-divided column index at `o` is the word-level floor division of the word of `o`. -/
theorem colTiles_apply (o : Fin 8192) : colTiles (ix1 o) = floorDivWord (BitVec.ofNat 32 o.val) := rfl

/-- The row side of the comparison at (t, o) is the word of `t`. -/
theorem rowIndex_apply (t : Fin 8) (o : Fin 8192) :
    broadcastInDim S8x8192 ![0, 1] bcast_S8x1_S8x8192_0_1 (shapeCast S8x1 (iotaInDim S8 32 0) shapeCasts_S8_S8x1) (ix2 t o)
      = BitVec.ofNat 32 t.val := by
  rw [broadcastInDim_apply _ bcast_S8x1_S8x8192_0_1 _ (ix2 t o) (ix2 t (0 : Fin 1)) (fun a => match a with
    | ⟨0, _⟩ => by show t.val = if (8 : Nat) = 1 then 0 else t.val; rw [if_neg (by decide)]
    | ⟨1, _⟩ => by show (0 : Nat) = if (1 : Nat) = 1 then 0 else o.val; rw [if_pos rfl])]
  rw [shapeCast_apply _ shapeCasts_S8_S8x1 (ix2 t (0 : Fin 1)) (ix1 t) (by
    rw [Shape.rowMajor_val_one, Shape.rowMajor_val_two]
    show t.val = t.val * 1 + 0
    omega)]
  rfl

/-- The column side at (t, o) is the word of `o / 1024`. -/
theorem colIndex_apply (t : Fin 8) (o : Fin 8192) :
    broadcastInDim S8x8192 ![0, 1] bcast_S1x8192_S8x8192_0_1 (shapeCast S1x8192 colTiles shapeCasts_S8192_S1x8192) (ix2 t o)
      = BitVec.ofNat 32 (tileOf o).val := by
  rw [broadcastInDim_apply _ bcast_S1x8192_S8x8192_0_1 _ (ix2 t o) (ix2 (0 : Fin 1) o) (fun a => match a with
    | ⟨0, _⟩ => by show (0 : Nat) = if (1 : Nat) = 1 then 0 else t.val; rw [if_pos rfl]
    | ⟨1, _⟩ => by show o.val = if (8192 : Nat) = 1 then 0 else o.val; rw [if_neg (by decide)])]
  rw [shapeCast_apply _ shapeCasts_S8192_S1x8192 (ix2 (0 : Fin 1) o) (ix1 o) (by
    rw [Shape.rowMajor_val_one, Shape.rowMajor_val_two]
    show o.val = 0 * 8192 + o.val
    omega)]
  rw [colTiles_apply, floorDivWord_eq o.val o.isLt, tileOf_val]

/-- Entry (t, o) of the indicator, on the extended reals: `1` on the column's tile row, `0` off it. -/
theorem indicator_apply (t : Fin 8) (o : Fin 8192) :
    indicator (F := Ideal) (ix2 t o) = if t = tileOf o then (1 : EReal) else 0 := by
  unfold indicator
  show FloatOps.uitofp (F := Ideal) .f32 (IntOp.cmpi .eq _ _) = _
  rw [rowIndex_apply, colIndex_apply]
  exact onehot_entry t (tileOf o)

/-- So the kernel's fifth operand, as the region finds it, is the one-hot column of each output column's tile. -/
theorem V_indicator_apply (m : (ℓ : Loc nD τ sig) → Buf (Elt Ideal) ℓ) (c : Dev nD) (t : Fin 8) (o : Fin 8192) :
    (V m c main_v9 : S8x8192.Idx → EReal) (ix2 t o) = if t = tileOf o then (1 : EReal) else 0 := by
  rw [V_indicator]
  exact indicator_apply t o

end Cert.KernelIdeal.Entry

end
-- ==== Proof.WholeArray.lean ====
/-
  The kernel's whole result array, on the extended reals: it is the specification of the four arguments.

  The 8 × 16 grid's point (i, j) works on rows `512·i …` of `x` and of the gate, rows `512·j …` of `w`, and columns
  `512·j …` of the scales' row and of the tile indicator, and writes block (i, j) of the [4096, 8192] result. Entry
  (p, q) of that block is, by the block's arithmetic, the feature sum for row `512·i + p` and column `512·j + q`,
  times the column's scale, times the gate row against the indicator's column — a one-hot column, so that sum is the
  gate entry of the column's tile. The 128 blocks tile the array, so the array ends as the specification everywhere.
-/
import proofs.«100587_j51934744543485_1_alg».proof.Proof.Gen.KernelIdeal.Value
import proofs.«100587_j51934744543485_1_alg».proof.Proof.KernelBlock
import proofs.«100587_j51934744543485_1_alg».proof.Proof.EntryArrays
import proofs.«100587_j51934744543485_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block Cert.KernelIdeal.Entry
open Idealize.ShloMosaic.ValueIdx Cert.GatedTernary
open scoped BigOperators

/-! ## One block, from blocks of arrays -/

/-- Block (bi, bj) of the result from the five blocks the body loads, when those are the corresponding blocks of
    arrays `X`, `W`, the scales' row `Srow` (row `0` of which is `Sc`), the gate `G` and a one-hot indicator `E`:
    entry (p, q) is the specification at row `512·bi + p`, column `512·bj + q`. -/
theorem block_value (X : S4096x2048.Idx → EReal) (W : S8192x2048.Idx → EReal) (Srow : S1x8192.Idx → EReal)
    (Sc : S8192.Idx → EReal) (G : S4096x8.Idx → BitVec 32) (E : S8x8192.Idx → EReal)
    (hS : ∀ o : Fin 8192, Srow (ix2 (0 : Fin 1) o) = Sc (ix1 o))
    (hE : ∀ (t : Fin 8) (o : Fin 8192), E (ix2 t o) = if t = tileOf o then (1 : EReal) else 0)
    (bi bj : Nat) (hbi : bi ≤ 7) (hbj : bj ≤ 15)
    (x0 x1 : Vec Ideal S512x2048 .f32) (x2 : Vec Ideal S1x512 .f32) (x3 : Vec Ideal S512x8 .i32) (x4 : Vec Ideal S8x512 .f32)
    (h0 : ∀ (p : Fin 512) (k : Fin 2048), x0 (ix2 p k) = X (ix2 (⟨bi * 512 + p.val, by have := p.isLt; omega⟩ : Fin 4096) k))
    (h1 : ∀ (q : Fin 512) (k : Fin 2048), x1 (ix2 q k) = W (ix2 (⟨bj * 512 + q.val, by have := q.isLt; omega⟩ : Fin 8192) k))
    (h2 : ∀ q : Fin 512, x2 (ix2 (0 : Fin 1) q) = Srow (ix2 (0 : Fin 1) (⟨bj * 512 + q.val, by have := q.isLt; omega⟩ : Fin 8192)))
    (h3 : ∀ (p : Fin 512) (t : Fin 8), x3 (ix2 p t) = G (ix2 (⟨bi * 512 + p.val, by have := p.isLt; omega⟩ : Fin 4096) t))
    (h4 : ∀ (t : Fin 8) (q : Fin 512), x4 (ix2 t q) = E (ix2 t (⟨bj * 512 + q.val, by have := q.isLt; omega⟩ : Fin 8192)))
    (p q : Fin 512) :
    k0_pay1 (F := Ideal) x0 x1 x2 x3 x4 (ix2 p q)
      = gatedAt X W Sc G (⟨bi * 512 + p.val, by have := p.isLt; omega⟩ : Fin 4096) (⟨bj * 512 + q.val, by have := q.isLt; omega⟩ : Fin 8192) := by
  rw [stored_apply]
  simp only [h0, h1, h2, h3, h4, hS, hE]
  rw [sum_onehot (fun t => (((G (ix2 (⟨bi * 512 + p.val, by have := p.isLt; omega⟩ : Fin 4096) t)).toInt : ℝ) : EReal))]
  rfl

/-! ## The windows' blocks as pieces of their arrays -/

variable (m : (ℓ : Loc nD τ sig) → Buf (Elt Ideal) ℓ) (ρ : Dev nD → PrngReg)

/-- Window 0's block at a point: 512 rows of `x`. -/
theorem iblk0_apply (c : Dev nD) (t : Fin cfg0.N) (y : S512x2048.Idx) (k : S4096x2048.Idx)
    (hk0 : (k 0).val = win0_0.index t 0 * 512 + (y 0).val) (hk1 : (k 1).val = win0_0.index t 1 * 2048 + (y 1).val) :
    (iblk m c 0 t : Vec Ideal S512x2048 .f32) y = (V m c main_arg0 : S4096x2048.Idx → EReal) k := by
  unfold iblk
  rw [View.read_apply]
  show V m c main_arg0 _ = V m c main_arg0 _
  congr 1
  funext a
  apply Fin.ext
  match a with
  | ⟨0, _⟩ => show win0_0.index t 0 * 512 + 1 * (y 0).val = (k 0).val; rw [hk0]; omega
  | ⟨1, _⟩ => show win0_0.index t 1 * 2048 + 1 * (y 1).val = (k 1).val; rw [hk1]; omega

/-- Window 1's block: 512 rows of `w`. -/
theorem iblk1_apply (c : Dev nD) (t : Fin cfg0.N) (y : S512x2048.Idx) (k : S8192x2048.Idx)
    (hk0 : (k 0).val = win0_1.index t 0 * 512 + (y 0).val) (hk1 : (k 1).val = win0_1.index t 1 * 2048 + (y 1).val) :
    (iblk m c 1 t : Vec Ideal S512x2048 .f32) y = (V m c main_arg1 : S8192x2048.Idx → EReal) k := by
  unfold iblk
  rw [View.read_apply]
  show V m c main_arg1 _ = V m c main_arg1 _
  congr 1
  funext a
  apply Fin.ext
  match a with
  | ⟨0, _⟩ => show win0_1.index t 0 * 512 + 1 * (y 0).val = (k 0).val; rw [hk0]; omega
  | ⟨1, _⟩ => show win0_1.index t 1 * 2048 + 1 * (y 1).val = (k 1).val; rw [hk1]; omega

/-- Window 2's block: 512 entries of the scales' row. -/
theorem iblk2_apply (c : Dev nD) (t : Fin cfg0.N) (y : S1x512.Idx) (k : S1x8192.Idx)
    (hk0 : (k 0).val = win0_2.index t 0 * 1 + (y 0).val) (hk1 : (k 1).val = win0_2.index t 1 * 512 + (y 1).val) :
    (iblk m c 2 t : Vec Ideal S1x512 .f32) y = (V m c main_v0 : S1x8192.Idx → EReal) k := by
  unfold iblk
  rw [View.read_apply]
  show V m c main_v0 _ = V m c main_v0 _
  congr 1
  funext a
  apply Fin.ext
  match a with
  | ⟨0, _⟩ => show win0_2.index t 0 * 1 + 1 * (y 0).val = (k 0).val; rw [hk0]; omega
  | ⟨1, _⟩ => show win0_2.index t 1 * 512 + 1 * (y 1).val = (k 1).val; rw [hk1]; omega

/-- Window 3's block: 512 rows of the gate. -/
theorem iblk3_apply (c : Dev nD) (t : Fin cfg0.N) (y : S512x8.Idx) (k : S4096x8.Idx)
    (hk0 : (k 0).val = win0_3.index t 0 * 512 + (y 0).val) (hk1 : (k 1).val = win0_3.index t 1 * 8 + (y 1).val) :
    (iblk m c 3 t : Vec Ideal S512x8 .i32) y = (V m c main_arg3 : S4096x8.Idx → BitVec 32) k := by
  unfold iblk
  rw [View.read_apply]
  show V m c main_arg3 _ = V m c main_arg3 _
  congr 1
  funext a
  apply Fin.ext
  match a with
  | ⟨0, _⟩ => show win0_3.index t 0 * 512 + 1 * (y 0).val = (k 0).val; rw [hk0]; omega
  | ⟨1, _⟩ => show win0_3.index t 1 * 8 + 1 * (y 1).val = (k 1).val; rw [hk1]; omega

/-- Window 4's block: 512 columns of the indicator. -/
theorem iblk4_apply (c : Dev nD) (t : Fin cfg0.N) (y : S8x512.Idx) (k : S8x8192.Idx)
    (hk0 : (k 0).val = win0_4.index t 0 * 8 + (y 0).val) (hk1 : (k 1).val = win0_4.index t 1 * 512 + (y 1).val) :
    (iblk m c 4 t : Vec Ideal S8x512 .f32) y = (V m c main_v9 : S8x8192.Idx → EReal) k := by
  unfold iblk
  rw [View.read_apply]
  show V m c main_v9 _ = V m c main_v9 _
  congr 1
  funext a
  apply Fin.ext
  match a with
  | ⟨0, _⟩ => show win0_4.index t 0 * 8 + 1 * (y 0).val = (k 0).val; rw [hk0]; omega
  | ⟨1, _⟩ => show win0_4.index t 1 * 512 + 1 * (y 1).val = (k 1).val; rw [hk1]; omega

/-! ## What a point writes back -/

theorem hz : (![0, 0] : Fin 2 → Nat) = fun _ => 0 := funext fun a => by fin_cases a <;> rfl

/-- The index maps over the grid: the row blocks of `x` and of the gate follow the output's row block, the row block
    of `w` and the column blocks of the scales and the indicator follow its column block, every other block index is
    zero, and the output's block indices range over 8 × 16. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = win0_5.index t (1 : Fin 2)
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 15 :=
  (by decide +kernel : ∀ t : Fin grid0.N, _)

/-- Every block of the 8 × 16 tiling is some point's. -/
theorem idx_onto : ∀ (q0 : Fin 8) (q1 : Fin 16), ∃ t : Fin cfg0.N, win0_5.index t = ![q0.val, q1.val] :=
  (by decide +kernel : ∀ (q0 : Fin 8) (q1 : Fin 16), ∃ t : Fin grid0.N, win0_5.index t = ![q0.val, q1.val])

/-- The specification of the four arguments as launched. -/
abbrev result (c : Dev nD) : S4096x8192.Idx → EReal :=
  gated (m ((c : Thread nD τ).loc main_arg0)) (m ((c : Thread nD τ).loc main_arg1)) (m ((c : Thread nD τ).loc main_arg2))
    (m ((c : Thread nD τ).loc main_arg3))

/-- WHAT POINT `t` WRITES BACK is block `t` of the specification. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S512x2048) hz, View.ld_unit_zero (S := S1x512) hz, View.ld_unit_zero (S := S512x8) hz,
    View.ld_unit_zero (S := S8x512) hz]
  obtain ⟨e00, e01, e10, e11, e20, e21, e30, e31, e40, e41, b0, b1⟩ := idx_facts t
  show (k0_pay1 (F := Ideal) (iblk m c 0 t) (iblk m c 1 t) (iblk m c 2 t) (iblk m c 3 t) (iblk m c 4 t) : S512x512.Idx → EReal)
    = fun y : S512x512.Idx => result m c (((cfg0.win 5).blk t).view.emb y)
  funext y
  obtain ⟨p, q, rfl⟩ : ∃ (p q : Fin 512), y = ix2 p q := ⟨y 0, y 1, eq_ix2 y⟩
  have hp : p.val < 512 := p.isLt
  have hq : q.val < 512 := q.isLt
  have hi : ((cfg0.win 5).blk t).view.emb (ix2 p q)
      = ix2 (⟨win0_5.index t (0 : Fin 2) * 512 + p.val, by omega⟩ : Fin 4096) (⟨win0_5.index t (1 : Fin 2) * 512 + q.val, by omega⟩ : Fin 8192) := by
    funext a
    apply Fin.ext
    match a with
    | ⟨0, _⟩ => show win0_5.index t (0 : Fin 2) * 512 + 1 * p.val = win0_5.index t (0 : Fin 2) * 512 + p.val; omega
    | ⟨1, _⟩ => show win0_5.index t (1 : Fin 2) * 512 + 1 * q.val = win0_5.index t (1 : Fin 2) * 512 + q.val; omega
  refine Eq.trans ?_ (congrArg (result m c) hi.symm)
  show _ = gatedAt _ _ _ _ _ _
  refine block_value (m ((c : Thread nD τ).loc main_arg0)) (m ((c : Thread nD τ).loc main_arg1)) (V m c main_v0)
    (m ((c : Thread nD τ).loc main_arg2)) (m ((c : Thread nD τ).loc main_arg3)) (V m c main_v9)
    (fun o => V_scales_apply m c o) (fun t' o => V_indicator_apply m c t' o)
    (win0_5.index t (0 : Fin 2)) (win0_5.index t (1 : Fin 2)) b0 b1
    (iblk m c 0 t) (iblk m c 1 t) (iblk m c 2 t) (iblk m c 3 t) (iblk m c 4 t) ?_ ?_ ?_ ?_ ?_ p q
  · intro p' k
    refine (iblk0_apply m c t (ix2 p' k) (ix2 (⟨win0_5.index t (0 : Fin 2) * 512 + p'.val, by have := p'.isLt; omega⟩ : Fin 4096) k) ?_ ?_).trans
      (congrFun (V_main_arg0 m c) _)
    · show win0_5.index t (0 : Fin 2) * 512 + p'.val = win0_0.index t 0 * 512 + p'.val; rw [e00]
    · show k.val = win0_0.index t 1 * 2048 + k.val; rw [e01]; omega
  · intro q' k
    refine (iblk1_apply m c t (ix2 q' k) (ix2 (⟨win0_5.index t (1 : Fin 2) * 512 + q'.val, by have := q'.isLt; omega⟩ : Fin 8192) k) ?_ ?_).trans
      (congrFun (V_main_arg1 m c) _)
    · show win0_5.index t (1 : Fin 2) * 512 + q'.val = win0_1.index t 0 * 512 + q'.val; rw [e10]
    · show k.val = win0_1.index t 1 * 2048 + k.val; rw [e11]; omega
  · intro q'
    refine iblk2_apply m c t (ix2 (0 : Fin 1) q') (ix2 (0 : Fin 1) (⟨win0_5.index t (1 : Fin 2) * 512 + q'.val, by have := q'.isLt; omega⟩ : Fin 8192)) ?_ ?_
    · show (0 : Nat) = win0_2.index t 0 * 1 + 0; rw [e20]
    · show win0_5.index t (1 : Fin 2) * 512 + q'.val = win0_2.index t 1 * 512 + q'.val; rw [e21]
  · intro p' t'
    refine (iblk3_apply m c t (ix2 p' t') (ix2 (⟨win0_5.index t (0 : Fin 2) * 512 + p'.val, by have := p'.isLt; omega⟩ : Fin 4096) t') ?_ ?_).trans
      (congrFun (V_main_arg3 m c) _)
    · show win0_5.index t (0 : Fin 2) * 512 + p'.val = win0_3.index t 0 * 512 + p'.val; rw [e30]
    · show t'.val = win0_3.index t 1 * 8 + t'.val; rw [e31]; omega
  · intro t' q'
    refine iblk4_apply m c t (ix2 t' q') (ix2 t' (⟨win0_5.index t (1 : Fin 2) * 512 + q'.val, by have := q'.isLt; omega⟩ : Fin 8192)) ?_ ?_
    · show t'.val = win0_4.index t 0 * 8 + t'.val; rw [e40]; omega
    · show win0_5.index t (1 : Fin 2) * 512 + q'.val = win0_4.index t 1 * 512 + q'.val; rw [e41]

/-! ## The blocks tile the array -/

/-- An index of the array is in point `t`'s block iff each coordinate is in the block's range on its axis. -/
theorem mem_blk (t : Fin cfg0.N) (i : S4096x8192.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v10).slice (win0_5.rect t)).set ↔ _
  rw [View.set_slice_whole, Rect.mem_set_unit]
  exact Iff.rfl

/-- Every index of the result array lies in the block of the point at its row block and column block. -/
theorem cover (i : S4096x8192.Idx) : ∃ t : Fin cfg0.N, (cfg0.win 5).flush t = true ∧ i ∈ ((cfg0.win 5).blk t).view.set := by
  have hi0 : (i 0).val < 4096 := (i 0).isLt
  have hi1 : (i 1).val < 8192 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- THE ARRAY after the run is the specification of the arguments. -/
theorem final (c : Dev nD) : (dats m 0 c).arrAt 5 cfg0.N = result m c :=
  (dats m 0 c).arrAt_eq_of_cover 5 (result m c) (fun t _ => flushed_eq m c t) (cover)

/-! ## The run, read -/

/-- Every execution of the idealized kernel program ends with the result array at the specification and the
    arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.ReferenceValue.lean ====
/-
  The reference program's result is the specification, index by index, on the extended reals.

  The reference selects the ternary codes of the whole weight array, contracts `x` with them over the 2048 input
  features, multiplies by the scales broadcast down the rows, and multiplies by the gate converted to reals and
  repeated 1024 times along each row: a [4096, 8] array broadcast to [4096, 8, 1024] and reshaped to [4096, 8192], so
  that column `o` reads gate column `o / 1024` (the row-major position `b·8192 + o` splits as
  `(b, o / 1024, o mod 1024)`).
-/
import proofs.«100587_j51934744543485_1_alg».proof.Proof.Gen.ReferenceIdeal.Read
import proofs.«100587_j51934744543485_1_alg».proof.Proof.Spec

noncomputable section

namespace Cert.ReferenceIdeal.RefValue

open Cert.ReferenceIdeal Cert.ReferenceIdeal.Read Idealize.ShloMosaic Idealize.ShloMosaic.ValueIdx Cert.GatedTernary
open scoped BigOperators

/-- The reference's selected weight at an index is the ternary code of the weight there. -/
theorem code_apply (x1 : S8192x2048.Idx → EReal) (j : S8192x2048.Idx) :
    val_main_v6 (F := Ideal) x1 j = tern (x1 j) := rfl

/-- The contraction's left index at output (b, o) and feature k is (b, k). -/
theorem lidx_eq (b : Fin 4096) (o : Fin 8192) (k : Fin 2048) : lidx_main_v7 (ix2 b o) k = ix2 b k :=
  funext fun a => Fin.ext (by match a with | ⟨0, _⟩ => rfl | ⟨1, _⟩ => rfl)

/-- Its right index is (o, k): row `o` of the weights. -/
theorem ridx_eq (b : Fin 4096) (o : Fin 8192) (k : Fin 2048) : ridx_main_v7 (ix2 b o) k = ix2 o k :=
  funext fun a => Fin.ext (by match a with | ⟨0, _⟩ => rfl | ⟨1, _⟩ => rfl)

/-- The scales, broadcast twice, are read at the column. -/
theorem sidx_eq (b : Fin 4096) (o : Fin 8192) : idx_main_v8 (idx_main_v9 (ix2 b o)) = ix1 o :=
  funext fun a => Fin.ext (by match a with | ⟨0, _⟩ => rfl)

/-- The repeated gate is read at (b, o / 1024). -/
theorem gidx_eq (b : Fin 4096) (o : Fin 8192) : idx_main_v12 (idx_main_v13 (ix2 b o)) = ix2 b (tileOf o) :=
  funext fun a => Fin.ext (by
    have hb : b.val < 4096 := b.isLt
    have ho : o.val < 8192 := o.isLt
    match a with
    | ⟨0, _⟩ => show (b.val * 8192 + o.val) / 8192 = b.val; omega
    | ⟨1, _⟩ => show (b.val * 8192 + o.val) / 1024 % 8 = o.val / 1024; omega)

/-- The reference's result array is the specification of its four arguments. -/
theorem reference_eq (x0 : S4096x2048.Idx → EReal) (x1 : S8192x2048.Idx → EReal) (x2 : S8192.Idx → EReal)
    (x3 : S4096x8.Idx → BitVec 32) :
    val_main_v14 (F := Ideal) x0 x1 x2 x3 = gated x0 x1 x2 x3 := by
  funext i
  obtain ⟨b, o, rfl⟩ : ∃ (b : Fin 4096) (o : Fin 8192), i = ix2 b o := ⟨i 0, i 1, eq_ix2 i⟩
  rw [val_main_v14_apply, val_main_v10_apply, val_main_v7_apply, val_main_v9_apply, val_main_v8_apply,
    val_main_v13_apply, val_main_v12_apply, val_main_v11_apply, sidx_eq, gidx_eq, gated_ix2]
  simp only [lidx_eq, ridx_eq, code_apply]
  rfl

end Cert.ReferenceIdeal.RefValue

end
-- ==== Proof.lean ====
/-
  A ternary-weight linear layer with per-column scales and a per-tile gate, as a tiled kernel against its
  whole-array reference: on the extended reals the two compute one function.

  Row `b`, column `o` of the result is  ( Σ_k x[b,k] · tern(w[o,k]) ) · s[o] · gate[b, o / 1024],  with `tern` the
  ternary code of a weight (`1` above one half, `-1` below minus one half, `0` otherwise) and the integer gate read
  as a real (Proof/Spec.lean).

  The reference contracts `x` with the codes of the whole weight array, scales the columns, and multiplies by the
  gate repeated 1024 times along each row (Proof/ReferenceValue.lean). The kernel walks an 8 × 16 grid of 512 × 512
  output blocks; at each it contracts 512 rows of `x` with the codes of 512 rows of `w` over all 2048 features (so
  nothing is accumulated across grid points), scales, and obtains the gate mask as a small product of the 512 × 8
  gate rows with an 8 × 512 piece of a one-hot tile indicator the host builds beforehand: entry (t, o) of the
  indicator is `1` exactly when `t = o / 1024` (Proof/TileIndicator.lean, Proof/EntryArrays.lean), so the product's
  entry is the one gate entry of the column's tile — on every extended real, since `a · 0 = 0` and `a · 1 = a` there
  (Proof/KernelBlock.lean). The blocks tile the result, which therefore is the specification everywhere
  (Proof/WholeArray.lean). No law used needs a finite operand, so the precondition is never opened. The matrix
  products' bf16 operands are the same extended reals as their f32 sources, and sums are exact, so neither the
  narrowing nor the order of accumulation shows.

  The three frames are the generated runs; the idealization rewrote nothing, so `preserves` is trivial.
-/
import proofs.«100587_j51934744543485_1_alg».proof.Defs
import proofs.«100587_j51934744543485_1_alg».proof.Proof.Gen.Kernel
import proofs.«100587_j51934744543485_1_alg».proof.Proof.Gen.Kernel.Skeleton
import proofs.«100587_j51934744543485_1_alg».proof.Proof.Gen.Kernel.Launch
import proofs.«100587_j51934744543485_1_alg».proof.Proof.Gen.Kernel.Points
import proofs.«100587_j51934744543485_1_alg».proof.Proof.Gen.Kernel.Frame
import proofs.«100587_j51934744543485_1_alg».proof.Proof.Gen.KernelIdeal
import proofs.«100587_j51934744543485_1_alg».proof.Proof.Gen.KernelIdeal.Skeleton
import proofs.«100587_j51934744543485_1_alg».proof.Proof.Gen.KernelIdeal.Launch
import proofs.«100587_j51934744543485_1_alg».proof.Proof.Gen.KernelIdeal.Points
import proofs.«100587_j51934744543485_1_alg».proof.Proof.Gen.KernelIdeal.Frame
import proofs.«100587_j51934744543485_1_alg».proof.Proof.Gen.ReferenceIdeal
import proofs.«100587_j51934744543485_1_alg».proof.Proof.Gen.Pre_finite_inputs
import proofs.«100587_j51934744543485_1_alg».proof.Proof.Gen.KernelIdeal.Value
import proofs.«100587_j51934744543485_1_alg».proof.Proof.Gen.ReferenceIdeal.Run
import proofs.«100587_j51934744543485_1_alg».proof.Proof.Gen.ReferenceIdeal.Read
import proofs.«100587_j51934744543485_1_alg».proof.Proof.WholeArray
import proofs.«100587_j51934744543485_1_alg».proof.Proof.ReferenceValue
import Idealize.ShloMosaic.Adequacy
import Idealize.ShloMosaic.Init

noncomputable section

namespace Cert.Proof

open Idealize.ShloMosaic Idealize.SL.Sem

/-- The word-level kernel program runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the specification of those arguments in
    their result arrays: the kernel's by its blocks, the reference's by reading its operations at an index. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.reference_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
